-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S_, .f32⟩
  | .hbm, ⟨3, _⟩ => ⟨S8192x4096, .f32⟩
  | .hbm, ⟨4, _⟩ => ⟨S8192x4096, .i1⟩
  | .hbm, ⟨5, _⟩ => ⟨S_, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S4096x4096, .f32⟩
  | .hbm, ⟨15, _⟩ => ⟨S4096x4096, .i1⟩
  | .hbm, ⟨16, _⟩ => ⟨S_, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_cst_1 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_cst_4 : Ref sig .tc := ⟨.hbm, 17, rfl⟩
abbrev main_call1_v0 : Ref sig .tc := ⟨.hbm, 18, rfl⟩
abbrev main_call1_v1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S_S4096x4096 : S_.BroadcastsInDim S4096x4096 (![] : Fin 0 → Fin S4096x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.PointValue.lean ====
/-
  What one grid point leaves in the accumulator and in the output block, as values.

  At every point the body adds the product of the two binarised input blocks to the accumulator. At the first point
  of a run of eight it first clears the accumulator, so what it leaves is the sum of the zero block and the product;
  at the later points it leaves the sum of what the point before left and the product; at the run's last point it also
  copies the accumulator, read back after that addition, into the output block. Each of these is one covering store
  (the first point's: the addition stored over the cleared block), read back here as the value it stores, for any
  float instance.
-/
import proofs.«147484_j41944650612857_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.PointValue

open Cert.KernelIdeal Cert.KernelIdeal.Gen

variable {F : FTy → Type} [FloatOps F]

theorem origin : (![0, 0] : Fin 2 → Nat) = fun _ => 0 := funext fun a => by fin_cases a <;> rfl

/-- A run's FIRST point: the accumulator ends at the cleared block plus the product of the two input blocks. -/
theorem acc_first (c : Dev nD) (i : grid0.Coords) (a3 : Memref sig .tc .vmem S1024x512 .f32) (h3 : a3.IsWhole)
    (a4 : Memref sig .tc .vmem S512x1024 .f32) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 : Vec F S1024x512 .f32) (x1 : Vec F S512x1024 .f32) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1024x512) origin,
    View.ld_unit_zero (S := S512x1024) origin]

/-- A point in the MIDDLE of a run: the accumulator ends at what it held plus the product of the two input blocks. -/
theorem acc_middle (c : Dev nD) (i : grid0.Coords) (a3 : Memref sig .tc .vmem S1024x512 .f32) (h3 : a3.IsWhole)
    (a4 : Memref sig .tc .vmem S512x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x0 : Vec F S1024x512 .f32) (x1 : Vec F S512x1024 .f32) (xs0 : Vec F S1024x1024 .f32) :
    sout0_B_0 c i a3 h3 a4 h4 a5 h5 a6 h6 hc0 hc1 x0 x1 xs0 = k0_pay2 x0 x1 xs0 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero origin]
  simp only [View.readAt_eq_ld, h3.read_unread, h4.read_unread, h6.read_unread, View.ld_unit_zero (S := S1024x512) origin,
    View.ld_unit_zero (S := S512x1024) origin, View.ld_unit_zero (S := S1024x1024) origin]

/-- A run's LAST point, the accumulator: as in the middle of the run. -/
theorem acc_last (c : Dev nD) (i : grid0.Coords) (a3 : Memref sig .tc .vmem S1024x512 .f32) (h3 : a3.IsWhole)
    (a4 : Memref sig .tc .vmem S512x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 : Vec F S1024x512 .f32) (x1 : Vec F S512x1024 .f32) (xs0 : Vec F S1024x1024 .f32) :
    sout0_C_0 c i a3 h3 a4 h4 a5 h5 a6 h6 hc0 hc1 x0 x1 xs0 = k0_pay2 x0 x1 xs0 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero origin]
  simp only [View.readAt_eq_ld, h3.read_unread, h4.read_unread, h6.read_unread, View.ld_unit_zero (S := S1024x512) origin,
    View.ld_unit_zero (S := S512x1024) origin, View.ld_unit_zero (S := S1024x1024) origin]

/-- A run's LAST point, the output block: the accumulator as that point leaves it. -/
theorem out_last (c : Dev nD) (i : grid0.Coords) (a3 : Memref sig .tc .vmem S1024x512 .f32) (h3 : a3.IsWhole)
    (a4 : Memref sig .tc .vmem S512x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 : Vec F S1024x512 .f32) (x1 : Vec F S512x1024 .f32) (xs0 : Vec F S1024x1024 .f32) :
    out0_C_2 c i a3 h3 a4 h4 a5 h5 a6 h6 hc0 hc1 x0 x1 xs0 = k0_pay2 x0 x1 xs0 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero origin, View.readCov_unit_zero (S := S1024x1024) _ origin]
  simp only [View.readAt_eq_ld, h3.read_unread, h4.read_unread, h6.read_unread, View.ld_unit_zero (S := S1024x512) origin,
    View.ld_unit_zero (S := S512x1024) origin, View.ld_unit_zero (S := S1024x1024) origin]

end Cert.KernelIdeal.PointValue

end
-- ==== Proof.LibPlainMatmul.lean ====
/-
  A plain matrix product read at an index, on the extended reals.

  For dimension numbers that contract the left operand's axis 1 with the right operand's axis 0, keep the left
  operand's axis 0 and the right operand's axis 1 as the result's two axes in that order, and have no batch axis
  — an `[M, K]` array times a `[K, N]` array —, the product into a zero accumulator has at `(a, v)` the entry
  `Σ_k lhs[a, k] · rhs[k, v]`, the sum taken over the `K` contraction positions in their natural order.
  The library states the product's entry as a sum over the record's own contraction index set, with the operands
  read at the record's index maps; here those maps are evaluated axis by axis for such a record and the sum is
  re-indexed by the one contraction coordinate.
-/
import Idealize.ShloMosaic.PureOps.Ideal.Laws
import Idealize.ShloMosaic.Lib.ValueIdx

noncomputable section

namespace Cert.PlainMatmul

open Idealize.ShloMosaic Idealize.ShloMosaic.ValueIdx
open scoped BigOperators

variable {M K N : ℕ} (d : DotDims ⟨2, ![M, K]⟩ ⟨2, ![K, N]⟩ ⟨2, ![M, N]⟩)

/-- The left operand's row coordinate is the result's row coordinate: axis 0 is the left operand's only kept axis,
    and with no batch axis it is the result's first. -/
theorem lhs_row (hb : d.lhsBatch = []) (hn : d.lhsNonContracting = [0]) (j : (⟨2, ![M, N]⟩ : Shape).Idx) (k : d.contr.Idx) :
    (d.lhsIdx j k 0).val = (j 0).val := by
  unfold DotDims.lhsIdx
  rw [dif_neg (by rw [hb]; exact List.not_mem_nil), dif_pos (by rw [hn]; exact List.mem_singleton.mpr rfl)]
  simp only [Fin.val_cast]
  have key : ∀ (p : Nat) (hp : p < 2), p = 0 → (j ⟨p, hp⟩).val = (j 0).val := fun p hp h => by subst h; rfl
  exact key _ _ (by simp [hb, hn])

/-- The right operand's column coordinate is the result's column coordinate: axis 1 is the right operand's only kept
    axis, and it comes after the left operand's one kept axis among the result's. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p : Nat) (hp : p < 2), p = 1 → (j ⟨p, hp⟩).val = (j 1).val := fun p hp h => by subst h; rfl
  exact key _ _ (by simp [hlb, hln, hrn])

/-- THE ENTRY: into the zero accumulator, at `(a, v)`, the sum over `k` of `lhs[a, k] · rhs[k, v]`. -/
theorem matmul_zero_apply {φ₁ φ₂ : FTy} (hlb : d.lhsBatch = []) (hrb : d.rhsBatch = []) (hln : d.lhsNonContracting = [0])
    (hrn : d.rhsNonContracting = [1]) (hlc : d.lhsContracting = [1]) (hrc : d.rhsContracting = [0])
    (prec : Option ContractPrecision) (lhs : FVec Ideal ⟨2, ![M, K]⟩ φ₁) (rhs : FVec Ideal ⟨2, ![K, N]⟩ φ₂) (a : Fin M) (v : Fin N) :
    matmul d prec lhs rhs (constant ⟨2, ![M, N]⟩ .f32 0x00000000#32) (ix2 a v) = ∑ k : Fin K, lhs (ix2 a k) * rhs (ix2 k v) := by
  show FloatOps.matmul d prec lhs rhs (constant ⟨2, ![M, N]⟩ .f32 0x00000000#32) (ix2 a v) = _
  rw [Ideal.matmul_constant_zero_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix2 a v) ((contrEquiv1 d K hr hs).symm k) = ix2 a k := by
    funext ax; apply Fin.ext
    match ax with
    | ⟨0, _⟩ => exact lhs_row d hlb hln _ _
    | ⟨1, _⟩ => exact (d.lhsIdx_val_of_single hlc _ _).trans (contrEquiv1_symm_val d K hr hs k)
  have e2 : d.rhsIdx (ix2 a v) ((contrEquiv1 d K hr hs).symm k) = ix2 k v := by
    funext ax; apply Fin.ext
    match ax with
    | ⟨0, _⟩ => exact (d.rhsIdx_val_of_single hrc _ _).trans (contrEquiv1_symm_val d K hr hs k)
    | ⟨1, _⟩ => exact rhs_col d hlb hrb hln hrn _ _
  rw [e1, e2]

end Cert.PlainMatmul

end
-- ==== Proof.SignProduct.lean ====
/-
  The function both programs compute, and the algebra that joins their two arrangements of it.

  Binarising an entry sends it to `1` when it is at least zero and to `-1` otherwise; the layer's output at row `r`,
  column `c` is the sum over the 4096 inner positions `k` of the binarised `x[r, k]` times the binarised `w[k, c]`.
  One program forms the binarised entry as `v + (s - v)`, which is `s` as soon as `v` is a real number (for an infinite
  `v` the difference and the sum are not inverse to each other on the extended reals, which is why the inputs are
  asked to be finite). The other program takes the inner sum in eight consecutive runs of 512 positions, adding run
  after run to a zero: the same sum, since addition of extended reals is commutative and associative.
-/
import Idealize.ShloMosaic.PureOps.Ideal.Laws
import Idealize.ShloMosaic.Lib.ValueIdx
import Mathlib.Algebra.BigOperators.Fin
import Mathlib.Logic.Equiv.Fin.Basic

noncomputable section

namespace Cert.SignProduct

open Idealize.ShloMosaic Idealize.ShloMosaic.ValueIdx
open scoped BigOperators

/-- The binarised entry: `1` where the entry is at least zero, `-1` elsewhere (the two values are kept as the
    words the programs print; nothing below needs to know which numbers they are). -/
def sgn (v : Ideal .f32) : Ideal .f32 :=
  Scalar.select (FloatOps.cmpf (F := Ideal) .oge v (FloatOps.ofBits (F := Ideal) .f32 0x00000000#32))
    (FloatOps.ofBits (F := Ideal) .f32 0x3F800000#32) (FloatOps.ofBits (F := Ideal) .f32 0xBF800000#32)

/-- One term of the inner sum at row `r`, column `c`: inner position `k`. -/
def term (x : (⟨2, ![8192, 4096]⟩ : Shape).Idx → Ideal .f32) (w : (⟨2, ![4096, 4096]⟩ : Shape).Idx → Ideal .f32)
    (r : Fin 8192) (c : Fin 4096) (k : Fin 4096) : Ideal .f32 :=
  sgn (x (ix2 r k)) * sgn (w (ix2 k c))

/-- The output's entry at row `r`, column `c`. -/
def entry (x : (⟨2, ![8192, 4096]⟩ : Shape).Idx → Ideal .f32) (w : (⟨2, ![4096, 4096]⟩ : Shape).Idx → Ideal .f32)
    (r : Fin 8192) (c : Fin 4096) : Ideal .f32 :=
  ∑ k : Fin 4096, term x w r c k

/-- THE OUTPUT ARRAY: the product of the binarised arrays. -/
def out (x : (⟨2, ![8192, 4096]⟩ : Shape).Idx → Ideal .f32) (w : (⟨2, ![4096, 4096]⟩ : Shape).Idx → Ideal .f32) :
    (⟨2, ![8192, 4096]⟩ : Shape).Idx → Ideal .f32 :=
  fun i => entry x w (i 0) (i 1)

theorem out_apply (x : (⟨2, ![8192, 4096]⟩ : Shape).Idx → Ideal .f32) (w : (⟨2, ![4096, 4096]⟩ : Shape).Idx → Ideal .f32)
    (r : Fin 8192) (c : Fin 4096) : out x w (ix2 r c) = entry x w r c := rfl

/-- For a REAL `v` and any extended real `s`, adding `s - v` to `v` gives `s` back: an infinite `s` absorbs the real
    `v` twice, a real `s` is ordinary cancellation. -/
theorem real_add_sub (v : ℝ) (s : EReal) : (v : EReal) + (s - (v : EReal)) = s := by
  induction s using EReal.rec with
  | bot => simp
  | top => simp
  | coe s => rw [← EReal.coe_sub, ← EReal.coe_add]; congr 1; ring

/-- A sum over the 4096 inner positions is the sum over the eight runs of the sums over each run's 512 positions. -/
theorem sum_runs {β : Type*} [AddCommMonoid β] (f : Fin 4096 → β) :
    ∑ k : Fin 4096, f k = ∑ s : Fin 8, ∑ kk : Fin 512, f ⟨512 * s.val + kk.val, by have := s.isLt; have := kk.isLt; omega⟩ := by
  have e := (Equiv.sum_comp (finProdFinEquiv : Fin 8 × Fin 512 ≃ Fin (8 * 512)) (f : Fin (8 * 512) → β)).symm
  refine e.trans ?_
  rw [Fintype.sum_prod_type]
  refine Finset.sum_congr rfl fun s _ => Finset.sum_congr rfl fun kk _ => ?_
  congr 1
  apply Fin.ext
  show kk.val + 512 * s.val = 512 * s.val + kk.val
  omega

end Cert.SignProduct

end
-- ==== Proof.BlockProduct.lean ====
/-
  The body's arithmetic at one entry of the 1024 x 1024 block, on the extended reals.

  The cleared block is zero everywhere. The accumulation adds to entry (p, q) of the accumulator the product of the
  two binarised input blocks there: the sum, over the block's 512 inner positions, of the binarised left entry in row
  `p` times the binarised right entry in column `q` (the narrowing of the binarised blocks to a shorter float format
  changes nothing on the extended reals, and the product is taken into a zero accumulator).
-/
import proofs.«147484_j41944650612857_1_alg».proof.Proof.Gen.KernelIdeal.Skeleton
import proofs.«147484_j41944650612857_1_alg».proof.Proof.LibPlainMatmul
import proofs.«147484_j41944650612857_1_alg».proof.Proof.SignProduct
import Idealize.ShloMosaic.Lib.Pipeline.Value

noncomputable section

open Idealize.ShloMosaic Idealize.ShloMosaic.ValueIdx
open scoped BigOperators

namespace Cert.KernelIdeal.BlockProduct

open Cert.KernelIdeal Cert.KernelIdeal.Gen Cert.SignProduct

/-- The cleared block holds zero at every entry. -/
theorem cleared_apply (j : S1024x1024.Idx) : k0_pay1 (F := Ideal) j = 0 := by
  unfold k0_pay1
  simp only [shapeCast_self]
  exact Ideal.ofBits_zero_f32

/-- THE ACCUMULATION at entry (p, q): what the accumulator held there, plus the 512-term sum of products of signs. -/
theorem accumulate_apply (xl : FVec Ideal S1024x512 .f32) (xr : FVec Ideal S512x1024 .f32) (acc : FVec Ideal S1024x1024 .f32)
    (p q : Fin 1024) :
    k0_pay2 (F := Ideal) xl xr acc (ix2 p q) = acc (ix2 p q) + ∑ kk : Fin 512, sgn (xl (ix2 p kk)) * sgn (xr (ix2 kk q)) := by
  unfold k0_pay2
  simp only [shapeCast_self]
  refine congrArg (fun z => acc (ix2 p q) + z) ?_
  exact Cert.PlainMatmul.matmul_zero_apply dot_S1024x512_S512x1024_S1024x1024_1_0_0_1_n_n rfl rfl rfl rfl rfl rfl none _ _ p q

end Cert.KernelIdeal.BlockProduct

end
-- ==== Proof.RunSum.lean ====
/-
  The accumulator over one run of eight grid points, on the extended reals.

  The grid's 256 points come in 32 runs of eight consecutive points; a run works on one 1024 x 1024 block of the
  output and walks the eight 512-wide slabs of the inner dimension. The run's first point clears the accumulator
  and adds its slab's product of binarised blocks, each later point adds its own slab's product to what the point
  before left. So after the point at offset `j` of its run the accumulator holds, entry by entry, zero plus the sum of
  the products of the slabs `0 … j`; at the run's last point the output block is that accumulator.
-/
import proofs.«147484_j41944650612857_1_alg».proof.Proof.Gen.KernelIdeal.Value
import proofs.«147484_j41944650612857_1_alg».proof.Proof.PointValue
import proofs.«147484_j41944650612857_1_alg».proof.Proof.BlockProduct

noncomputable section

open Idealize.ShloMosaic Idealize.ShloMosaic.TcCoe Idealize.SL.Sem Idealize.ShloMosaic.ValueIdx
open scoped BigOperators

namespace Cert.KernelIdeal.RunSum

open Cert.KernelIdeal Cert.KernelIdeal.Gen Cert.KernelIdeal.Value Cert.SignProduct

variable (m : (ℓ : Loc nD τ sig) → Buf (Elt Ideal) ℓ)

/-- The left input's block at a grid point: 1024 rows of `x` by one 512-wide slab of the inner dimension. -/
abbrev lblk (c : Dev nD) (t : Fin cfg0.N) : FVec Ideal S1024x512 .f32 := iblk m c 0 t
/-- The right input's block at a grid point: the same slab of the inner dimension by 1024 columns of `w`. -/
abbrev rblk (c : Dev nD) (t : Fin cfg0.N) : FVec Ideal S512x1024 .f32 := iblk m c 1 t

/-- What grid point `n` adds to the accumulator's entry `i`: the product of its two binarised blocks there (zero past
    the grid, where nothing is added). -/
def addend (c : Dev nD) (n : ℕ) (i : S1024x1024.Idx) : Ideal .f32 :=
  if h : n < cfg0.N then ∑ kk : Fin 512, sgn (lblk m c ⟨n, h⟩ (ix2 (i 0) kk)) * sgn (rblk m c ⟨n, h⟩ (ix2 kk (i 1))) else 0

/-- At a run's first point the accumulator ends at the cleared block plus the point's product, whatever it held. -/
theorem step_first (c : Dev nD) (n : ℕ) (h : n < cfg0.N) (hn : n % 8 = 0) (acc : Vec Ideal S1024x1024 .f32) :
    scAt0_0 m c n h acc = k0_pay2 (F := Ideal) (lblk m c ⟨n, h⟩) (rblk m c ⟨n, h⟩) (k0_pay1 (F := Ideal)) := by
  unfold scAt0_0
  rw [dif_pos hn, dif_neg (by omega)]
  exact PointValue.acc_first ..

/-- At every other point it ends at what it held plus the point's product. -/
theorem step_later (c : Dev nD) (n : ℕ) (h : n < cfg0.N) (hn : ¬n % 8 = 0) (acc : Vec Ideal S1024x1024 .f32) :
    scAt0_0 m c n h acc = k0_pay2 (F := Ideal) (lblk m c ⟨n, h⟩) (rblk m c ⟨n, h⟩) acc := by
  unfold scAt0_0
  rw [dif_neg hn]
  by_cases h1 : n % 8 = 7
  · rw [dif_pos h1]; exact PointValue.acc_last ..
  · rw [dif_neg h1]; exact PointValue.acc_middle ..

/-- THE ACCUMULATOR after point `t`: zero plus the addends of its run's points up to `t`. -/
theorem acc_after (c : Dev nD) (t : Fin cfg0.N) (i : S1024x1024.Idx) :
    (outsAt0 m c t.val t.isLt).2 i = 0 + ∑ s ∈ Finset.range (t.val % 8 + 1), addend m c (8 * (t.val / 8) + s) i := by
  rw [soutsAt0_0_eq m c t]
  refine Pipeline.accAt_add_apply (β := EReal) _ _ (fun _ => 0) (addend m c) (8 * (t.val / 8)) 7 ?_ ?_ (t.val % 8) (by omega) _ i
  · intro h j
    rw [step_first m c _ h (by omega)]
    obtain ⟨p, q, rfl⟩ : ∃ (p q : Fin 1024), j = ix2 p q := ⟨j 0, j 1, eq_ix2 j⟩
    rw [BlockProduct.accumulate_apply, BlockProduct.cleared_apply]
    unfold addend
    rw [dif_pos h]
  · intro n h acc j hb hn
    rw [step_later m c n h (by omega)]
    obtain ⟨p, q, rfl⟩ : ∃ (p q : Fin 1024), j = ix2 p q := ⟨j 0, j 1, eq_ix2 j⟩
    rw [BlockProduct.accumulate_apply]
    unfold addend
    rw [dif_pos h]

/-- At a run's last point the output block is the accumulator as that point leaves it. -/
theorem out_eq_acc (c : Dev nD) (t : Fin cfg0.N) (h7 : t.val % 8 = 7) :
    (outsAt0 m c t.val t.isLt).1 = (outsAt0 m c t.val t.isLt).2 := by
  rw [outsAt0_C m c t (by omega) h7]
  dsimp only
  rw [PointValue.out_last, PointValue.acc_last]

/-- So the block a run's last point writes back holds, entry by entry, the sum of the run's eight addends. -/
theorem out_last_apply (c : Dev nD) (t : Fin cfg0.N) (h7 : t.val % 8 = 7) (i : S1024x1024.Idx) :
    (outsAt0 m c t.val t.isLt).1 i = ∑ s : Fin 8, addend m c (8 * (t.val / 8) + s.val) i := by
  rw [out_eq_acc m c t h7, acc_after m c t i, h7, zero_add, Finset.sum_range]

end Cert.KernelIdeal.RunSum

end
-- ==== Proof.OutputArray.lean ====
/-
  The output array after the kernel's run: the product of the binarised arrays.

  Grid point `t` of the 8 x 4 x 8 grid works on row block `t / 32` and column block `(t / 8) mod 4` of the output and
  on slab `t mod 8` of the inner dimension: its left block is rows `1024·(t/32) + p`, inner positions
  `512·(t mod 8) + kk` of `x`, its right block the same inner positions and columns `1024·((t/8) mod 4) + q` of `w`. The
  eight points of a run share their output block and walk the eight slabs, so the block the run's last point writes
  back holds at (p, q) the sum over all 4096 inner positions, taken slab by slab: entry
  (1024·(t/32) + p, 1024·((t/8) mod 4) + q) of the product of the binarised arrays. The 32 runs' output blocks tile
  the array, so the array ends holding that product everywhere.
-/
import proofs.«147484_j41944650612857_1_alg».proof.Proof.RunSum
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.OutputArray

open Cert.KernelIdeal Cert.KernelIdeal.Gen Cert.KernelIdeal.Value Cert.KernelIdeal.RunSum Cert.SignProduct

variable (m : (ℓ : Loc nD τ sig) → Buf (Elt Ideal) ℓ) (ρ : Dev nD → PrngReg)

/-- The two argument arrays as launched. -/
abbrev xarr (c : Dev nD) : FVec Ideal S8192x4096 .f32 := m ((c : Thread nD τ).loc main_arg0)
abbrev warr (c : Dev nD) : FVec Ideal S4096x4096 .f32 := m ((c : Thread nD τ).loc main_arg1)

/-- Where each window's block sits at each grid point, decided over the grid's 256 points. -/
theorem block_index : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = t.val / 32 ∧ win0_2.index t (1 : Fin 2) = t.val / 8 % 4 :=
  (by decide +kernel : ∀ t : Fin grid0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = t.val / 32 ∧ win0_2.index t (1 : Fin 2) = t.val / 8 % 4)

/-- The left block at (p, kk) is `x` at row `1024·(t/32) + p`, inner position `512·(t mod 8) + kk`. -/
theorem lblk_apply (c : Dev nD) (t : Fin cfg0.N) (p : Fin 1024) (kk : Fin 512) (R : Fin 8192) (K : Fin 4096)
    (hR : R.val = 1024 * (t.val / 32) + p.val) (hK : K.val = 512 * (t.val % 8) + kk.val) :
    lblk m c t (ix2 p kk) = xarr m c (ix2 R K) := by
  obtain ⟨e0, e1, -⟩ := block_index t
  show V m c main_arg0 (((cfg0.win 0).blk t).view.emb (ix2 p kk)) = V m c main_arg0 (ix2 R K)
  refine congrArg _ (funext fun a => Fin.ext ?_)
  match a with
  | ⟨0, _⟩ => show win0_0.index t (0 : Fin 2) * 1024 + 1 * p.val = R.val; omega
  | ⟨1, _⟩ => show win0_0.index t (1 : Fin 2) * 512 + 1 * kk.val = K.val; omega

/-- The right block at (kk, q) is `w` at inner position `512·(t mod 8) + kk`, column `1024·((t/8) mod 4) + q`. -/
theorem rblk_apply (c : Dev nD) (t : Fin cfg0.N) (kk : Fin 512) (q : Fin 1024) (K : Fin 4096) (C : Fin 4096)
    (hK : K.val = 512 * (t.val % 8) + kk.val) (hC : C.val = 1024 * (t.val / 8 % 4) + q.val) :
    rblk m c t (ix2 kk q) = warr m c (ix2 K C) := by
  obtain ⟨-, -, e2, e3, -⟩ := block_index t
  show V m c main_arg1 (((cfg0.win 1).blk t).view.emb (ix2 kk q)) = V m c main_arg1 (ix2 K C)
  refine congrArg _ (funext fun a => Fin.ext ?_)
  match a with
  | ⟨0, _⟩ => show win0_1.index t (0 : Fin 2) * 512 + 1 * kk.val = K.val; omega
  | ⟨1, _⟩ => show win0_1.index t (1 : Fin 2) * 1024 + 1 * q.val = C.val; omega

/-- The addend of the point at offset `s` of `t`'s run, at (p, q): slab `s`'s 512 terms of the inner sum at the array
    entry under (p, q). -/
theorem addend_apply (c : Dev nD) (t : Fin cfg0.N) (s : Fin 8) (p q : Fin 1024) (R : Fin 8192) (C : Fin 4096)
    (hR : R.val = 1024 * (t.val / 32) + p.val) (hC : C.val = 1024 * (t.val / 8 % 4) + q.val) :
    addend m c (8 * (t.val / 8) + s.val) (ix2 p q)
      = ∑ kk : Fin 512, term (xarr m c) (warr m c) R C ⟨512 * s.val + kk.val, by have := s.isLt; have := kk.isLt; omega⟩ := by
  have hN : cfg0.N = 256 := N_0
  have ht := t.isLt
  have hs := s.isLt
  have hn : 8 * (t.val / 8) + s.val < cfg0.N := by omega
  unfold addend
  rw [dif_pos hn]
  refine Finset.sum_congr rfl fun kk _ => ?_
  have hk := kk.isLt
  show sgn (lblk m c ⟨8 * (t.val / 8) + s.val, hn⟩ (ix2 p kk)) * sgn (rblk m c ⟨8 * (t.val / 8) + s.val, hn⟩ (ix2 kk q)) = _
  rw [lblk_apply m c ⟨8 * (t.val / 8) + s.val, hn⟩ p kk R ⟨512 * s.val + kk.val, by omega⟩ (by dsimp only; omega) (by dsimp only; omega),
    rblk_apply m c ⟨8 * (t.val / 8) + s.val, hn⟩ kk q ⟨512 * s.val + kk.val, by omega⟩ C (by dsimp only; omega) (by dsimp only; omega)]
  rfl

/-- WHAT A RUN'S LAST POINT WRITES BACK is its block of the product of the binarised arrays. -/
theorem flushed_eq (c : Dev nD) (t : Fin cfg0.N) (hf : (cfg0.win 2).flush t = true) :
    (dats m 0 c).flushed 2 t = ((cfg0.win 2).blk t).view.read (Elt Ideal) (out (xarr m c) (warr m c)) := by
  have h7 : t.val % 8 = 7 := (flush0_2 t).mp hf
  obtain ⟨-, -, -, -, e4, e5⟩ := block_index t
  have hN : cfg0.N = 256 := N_0
  have ht := t.isLt
  rw [flushed2]
  funext j
  obtain ⟨p, q, rfl⟩ : ∃ (p q : Fin 1024), j = ix2 p q := ⟨j 0, j 1, eq_ix2 j⟩
  have hp := p.isLt
  have hq := q.isLt
  have hemb : ((cfg0.win 2).blk t).view.emb (ix2 p q)
      = ix2 (⟨1024 * (t.val / 32) + p.val, by omega⟩ : Fin 8192) (⟨1024 * (t.val / 8 % 4) + q.val, by omega⟩ : Fin 4096) :=
    funext fun a => Fin.ext (by
      match a with
      | ⟨0, _⟩ => show win0_2.index t (0 : Fin 2) * 1024 + 1 * p.val = 1024 * (t.val / 32) + p.val; omega
      | ⟨1, _⟩ => show win0_2.index t (1 : Fin 2) * 1024 + 1 * q.val = 1024 * (t.val / 8 % 4) + q.val; omega)
  show (outsAt0 m c t.val t.isLt).1 (ix2 p q) = out (xarr m c) (warr m c) (((cfg0.win 2).blk t).view.emb (ix2 p q))
  rw [hemb, out_apply, out_last_apply m c t h7]
  unfold entry
  rw [sum_runs]
  exact Finset.sum_congr rfl fun s _ => addend_apply m c t s p q _ _ rfl rfl

/-- An index of the array is in point `t`'s output block iff each coordinate is in the block's range on its axis. -/
theorem mem_blk (t : Fin cfg0.N) (i : S8192x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- Every index of the array lies in the output block of the last point of some run: row block `i₀ / 1024`, column
    block `i₁ / 1024`. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 256 := N_0
  have hlt : ((i 0).val / 1024 * 4 + (i 1).val / 1024) * 8 + 7 < cfg0.N := by omega
  obtain ⟨-, -, -, -, e4, e5⟩ := block_index ⟨_, hlt⟩
  refine ⟨⟨_, hlt⟩, (flush0_2 _).mpr (by dsimp only; omega), ?_⟩
  rw [mem_blk]
  intro a
  match a with
  | ⟨0, _⟩ =>
    show win0_2.index ⟨_, hlt⟩ (0 : Fin 2) * 1024 ≤ (i 0).val ∧ (i 0).val < win0_2.index ⟨_, hlt⟩ (0 : Fin 2) * 1024 + 1024
    rw [e4]; dsimp only; omega
  | ⟨1, _⟩ =>
    show win0_2.index ⟨_, hlt⟩ (1 : Fin 2) * 1024 ≤ (i 1).val ∧ (i 1).val < win0_2.index ⟨_, hlt⟩ (1 : Fin 2) * 1024 + 1024
    rw [e5]; dsimp only; omega

/-- THE OUTPUT ARRAY after the run: the product of the binarised argument arrays. -/
theorem final (c : Dev nD) : (dats m 0 c).arrAt 2 cfg0.N = out (xarr m c) (warr m c) :=
  (dats m 0 c).arrAt_eq_of_cover 2 (out (xarr m c) (warr m c)) (flushed_eq m c) covered

/-- The kernel's run, read: the result array at the product of the binarised arguments, the arguments unchanged. -/
theorem run : θ_run defs (onTc (τ := τ) (main (F := Ideal))) ⟨m, fun _ => 0, ρ⟩ fun r => ∀ c : Dev nD,
      r.2.mem ((c : Thread nD τ).loc main_v0) = out (xarr m c) (warr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.OutputArray

end
-- ==== Proof.ReferenceValue.lean ====
/-
  The reference's result is the product of the binarised arrays, for inputs that hold real numbers.

  The reference forms a binarised array as `v + (s - v)`, `s` the sign array of `v`: entry by entry that is `s` for a
  real `v`. Its result is the host's matrix product of the two arrays so formed, which at row `r`, column `c` is the
  sum over the 4096 inner positions of the left entry in row `r` times the right entry in column `c`.
-/
import proofs.«147484_j41944650612857_1_alg».proof.Proof.Gen.ReferenceIdeal.Read
import proofs.«147484_j41944650612857_1_alg».proof.Proof.SignProduct

noncomputable section

open Idealize.ShloMosaic Idealize.ShloMosaic.ValueIdx
open scoped BigOperators

namespace Cert.ReferenceIdeal.RefValue

open Cert.ReferenceIdeal Cert.ReferenceIdeal.Gen Cert.ReferenceIdeal.Read Cert.SignProduct

/-- The left operand of the product, at an index where `x` is real: the binarised entry. -/
theorem left_apply (x : FVec Ideal S8192x4096 .f32) (i : S8192x4096.Idx) (hx : ∃ r : ℝ, x i = (r : EReal)) :
    val_main_v5 (F := Ideal) x i = sgn (x i) := by
  have e0 : val_main_v0 (F := Ideal) i = FloatOps.ofBits (F := Ideal) .f32 0x00000000#32 := by rw [val_main_v0_apply]; rfl
  have e1 : val_main_call0_v0 (F := Ideal) i = FloatOps.ofBits (F := Ideal) .f32 0x3F800000#32 := by rw [val_main_call0_v0_apply]; rfl
  have e2 : val_main_call0_v1 (F := Ideal) i = FloatOps.ofBits (F := Ideal) .f32 0xBF800000#32 := by rw [val_main_call0_v1_apply]; rfl
  show x i + (Scalar.select (FloatOps.cmpf (F := Ideal) .oge (x i) (val_main_v0 (F := Ideal) i)) (val_main_call0_v0 (F := Ideal) i)
    (val_main_call0_v1 (F := Ideal) i) - x i) = sgn (x i)
  rw [e0, e1, e2]
  obtain ⟨r, hr⟩ := hx
  show x i + (sgn (x i) - x i) = sgn (x i)
  rw [hr]
  exact real_add_sub r _

/-- The right operand of the product, at an index where `w` is real: the binarised entry. -/
theorem right_apply (w : FVec Ideal S4096x4096 .f32) (i : S4096x4096.Idx) (hw : ∃ r : ℝ, w i = (r : EReal)) :
    val_main_v11 (F := Ideal) w i = sgn (w i) := by
  have e0 : val_main_v6 (F := Ideal) i = FloatOps.ofBits (F := Ideal) .f32 0x00000000#32 := by rw [val_main_v6_apply]; rfl
  have e1 : val_main_call1_v0 (F := Ideal) i = FloatOps.ofBits (F := Ideal) .f32 0x3F800000#32 := by rw [val_main_call1_v0_apply]; rfl
  have e2 : val_main_call1_v1 (F := Ideal) i = FloatOps.ofBits (F := Ideal) .f32 0xBF800000#32 := by rw [val_main_call1_v1_apply]; rfl
  show w i + (Scalar.select (FloatOps.cmpf (F := Ideal) .oge (w i) (val_main_v6 (F := Ideal) i)) (val_main_call1_v0 (F := Ideal) i)
    (val_main_call1_v1 (F := Ideal) i) - w i) = sgn (w i)
  rw [e0, e1, e2]
  obtain ⟨r, hr⟩ := hw
  show w i + (sgn (w i) - w i) = sgn (w i)
  rw [hr]
  exact real_add_sub r _

/-- THE REFERENCE'S RESULT for real inputs: the product of the binarised arrays. -/
theorem result_eq (x : FVec Ideal S8192x4096 .f32) (w : FVec Ideal S4096x4096 .f32)
    (hx : ∀ i, ∃ r : ℝ, x i = (r : EReal)) (hw : ∀ i, ∃ r : ℝ, w i = (r : EReal)) :
    val_main_v12 (F := Ideal) x w = out x w := by
  funext i
  obtain ⟨r, c, rfl⟩ : ∃ (r : Fin 8192) (c : Fin 4096), i = ix2 r c := ⟨i 0, i 1, eq_ix2 i⟩
  rw [val_main_v12_apply, out_apply]
  unfold entry term
  refine Finset.sum_congr rfl fun k _ => ?_
  have el : lidx_main_v12 (ix2 r c) k = ix2 r k :=
    funext fun a => Fin.ext (by match a with | ⟨0, _⟩ => rfl | ⟨1, _⟩ => rfl)
  have er : ridx_main_v12 (ix2 r c) k = ix2 k c :=
    funext fun a => Fin.ext (by match a with | ⟨0, _⟩ => rfl | ⟨1, _⟩ => rfl)
  rw [el, er, left_apply x _ (hx _), right_apply w _ (hw _)]

end Cert.ReferenceIdeal.RefValue

end
-- ==== Proof.FiniteInputs.lean ====
/-
  The precondition read: every entry of both inputs is a real number.

  The precondition asks, for each input, that the absolute value of every entry be below plus infinity, all entries
  together, both inputs together. An extended real whose absolute value is below plus infinity is neither infinity,
  so it is a real number.
-/
import proofs.«147484_j41944650612857_1_alg».proof.Pre_finite_inputs
import Idealize.ShloMosaic.PureOps.Ideal.Laws
import Idealize.ShloMosaic.Lib.ReduceAll
import Idealize.ShloMosaic.Lib.Affine
import Idealize.ShloMosaic.Lib.ValueIdx
import Idealize.ShloMosaic.Lib.Pipeline.Value

noncomputable section

open Idealize.ShloMosaic

namespace Cert.FiniteInputs

open Cert.Pre_finite_inputs

instance : Subsingleton S_.Idx := ⟨fun a b => funext fun d => d.elim0⟩

/-- An extended real whose absolute value is strictly below plus infinity is a real number. -/
theorem real_of_abs_lt (v : EReal)
    (h : Ideal.cmp .olt (max v (-v)) (Ideal.ofBits .f32 0x7F800000#32) = 1#1) : ∃ r : ℝ, v = (r : EReal) := by
  have hinf : Ideal.ofBits .f32 0x7F800000#32 = ⊤ := by simp [Ideal.ofBits, Ideal.ieee]
  rw [hinf] at h
  induction v using EReal.rec with
  | bot => exfalso; revert h; simp [Ideal.cmp]
  | top => exfalso; revert h; simp [Ideal.cmp]
  | coe r => exact ⟨r, rfl⟩

variable [Facts]

/-- THE PRECONDITION, READ: both inputs hold real numbers at every index. -/
theorem real_of_pre (x : FVec Ideal S8192x4096 .f32) (w : FVec Ideal S4096x4096 .f32)
    (h : fn (F := Ideal) x w = fun _ => 1#1) :
    (∀ i, ∃ r : ℝ, x i = (r : EReal)) ∧ (∀ i, ∃ r : ℝ, w i = (r : EReal)) := by
  have h0 := congrFun h ValueIdx.ix0
  dsimp only [fn] at h0
  obtain ⟨hx, hw⟩ := IntOp.andi_eq_one.1 h0
  constructor
  · intro i
    have hp := Host.reduce_andi_all _ _ _ _ _ hx i
    change FloatOps.cmpf (F := Ideal) .olt (FloatOps.hostAbsf (F := Ideal) (x i))
      (broadcastInDim S8192x4096 ![] Facts.bcast_S_S8192x4096 (constant (F := Ideal) S_ .f32 0x7F800000#32) i) = 1#1 at hp
    rw [broadcastInDim_apply _ Facts.bcast_S_S8192x4096 _ i ValueIdx.ix0 (fun a => a.elim0)] at hp
    exact real_of_abs_lt _ hp
  · intro i
    have hp := Host.reduce_andi_all _ _ _ _ _ hw i
    change FloatOps.cmpf (F := Ideal) .olt (FloatOps.hostAbsf (F := Ideal) (w i))
      (broadcastInDim S4096x4096 ![] Facts.bcast_S_S4096x4096 (constant (F := Ideal) S_ .f32 0x7F800000#32) i) = 1#1 at hp
    rw [broadcastInDim_apply _ Facts.bcast_S_S4096x4096 _ i ValueIdx.ix0 (fun a => a.elim0)] at hp
    exact real_of_abs_lt _ hp

end Cert.FiniteInputs

end
-- ==== Proof.lean ====
/-
  A binary linear layer: both inputs are binarised entry by entry (`1` where the entry is at least zero, `-1`
  elsewhere) and the binarised `x`, 8192 x 4096, is multiplied by the binarised `w`, 4096 x 4096.

  On the extended reals both programs end with the same array: at row `r`, column `c` the sum over the 4096 inner
  positions `k` of the binarised `x[r, k]` times the binarised `w[k, c]` (SignProduct.lean states it).

  The kernel walks an 8 x 4 x 8 grid: 1024 x 1024 output blocks, and for each of them the inner dimension in eight
  slabs of 512. Over the eight points of a block's run an accumulator is cleared, receives the eight slabs' products
  of binarised blocks one after the other, and is copied to the output block at the run's last point
  (PointValue.lean: what one point leaves; BlockProduct.lean: that arithmetic at one entry; RunSum.lean: the
  accumulator over a run; OutputArray.lean: the blocks' positions in the arrays, and that the 32 output blocks tile
  the result). The slab sums add up to the whole inner sum because addition of extended reals is commutative and
  associative; nothing about the inputs is needed on this side.

  The reference forms each binarised array as `v + (s - v)` with `s` the sign array of `v`, and multiplies the two.
  For a real `v` that is `s`; for an infinite `v` it is not, and this is where the precondition — every input entry
  finite — is used (FiniteInputs.lean reads it; ReferenceValue.lean reads the reference's result).

  The kernel's text at the word level and its idealisation differ by no rewrite, so the idealisation claim is
  trivially true; the three frames are the generated ones (the reference's: its run with the result dropped).
-/
import proofs.«147484_j41944650612857_1_alg».proof.Defs
import proofs.«147484_j41944650612857_1_alg».proof.Proof.Gen.Kernel
import proofs.«147484_j41944650612857_1_alg».proof.Proof.Gen.Kernel.Skeleton
import proofs.«147484_j41944650612857_1_alg».proof.Proof.Gen.Kernel.Launch
import proofs.«147484_j41944650612857_1_alg».proof.Proof.Gen.Kernel.Points
import proofs.«147484_j41944650612857_1_alg».proof.Proof.Gen.Kernel.Frame
import proofs.«147484_j41944650612857_1_alg».proof.Proof.Gen.KernelIdeal
import proofs.«147484_j41944650612857_1_alg».proof.Proof.Gen.KernelIdeal.Skeleton
import proofs.«147484_j41944650612857_1_alg».proof.Proof.Gen.KernelIdeal.Launch
import proofs.«147484_j41944650612857_1_alg».proof.Proof.Gen.KernelIdeal.Points
import proofs.«147484_j41944650612857_1_alg».proof.Proof.Gen.KernelIdeal.Frame
import proofs.«147484_j41944650612857_1_alg».proof.Proof.Gen.ReferenceIdeal
import proofs.«147484_j41944650612857_1_alg».proof.Proof.Gen.Pre_finite_inputs
import proofs.«147484_j41944650612857_1_alg».proof.Proof.Gen.KernelIdeal.Value
import proofs.«147484_j41944650612857_1_alg».proof.Proof.Gen.ReferenceIdeal.Run
import proofs.«147484_j41944650612857_1_alg».proof.Proof.Gen.ReferenceIdeal.Read
import proofs.«147484_j41944650612857_1_alg».proof.Proof.OutputArray
import proofs.«147484_j41944650612857_1_alg».proof.Proof.ReferenceValue
import proofs.«147484_j41944650612857_1_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does its idealisation. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the idealisation. -/
theorem preserves : Cert.preserves_Kernel_KernelIdeal := trivial

/-- From memories that agree on `x` and `w`, both finite, the kernel and the reference end with the product of the
    binarised arrays: the kernel by its run read block by block, the reference by its run read entry by entry, where
    finiteness turns `v + (s - v)` into `s`. -/
theorem algebraic : Cert.algebraic_KernelIdeal_ReferenceIdeal := by
  intro m ρ m' ρ' hpre hagree
  refine ⟨fun c => Cert.SignProduct.out (Cert.KernelIdeal.OutputArray.xarr m c) (Cert.KernelIdeal.OutputArray.warr m c),
    Cert.KernelIdeal.OutputArray.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw⟩ := Cert.FiniteInputs.real_of_pre _ _ (hpre c)
  rw [(hagree c).1, (hagree c).2]
  exact (Cert.ReferenceIdeal.Read.val_main_v12_eq _ _).trans (Cert.ReferenceIdeal.RefValue.result_eq _ _ hx hw)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
